-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S600000 32) (main_arg6 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S1x64 : Shape := ⟨2, ![1, 64]⟩
abbrev S2000x128 : Shape := ⟨2, ![2000, 128]⟩
abbrev S2000x1 : Shape := ⟨2, ![2000, 1]⟩
abbrev S600000x128 : Shape := ⟨2, ![600000, 128]⟩
abbrev S50000x64 : Shape := ⟨2, ![50000, 64]⟩
abbrev S2000x64 : Shape := ⟨2, ![2000, 64]⟩

abbrev nBuf : Space → Nat
  | .hbm => 59
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S600000, .i32⟩
  | .hbm, ⟨6, _⟩ => ⟨S600000, .i32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x1, .f32⟩
  | .hbm, ⟨27, _⟩ => ⟨S1x128, .f32⟩
  | .hbm, ⟨28, _⟩ => ⟨S1x64, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S128x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  shapeCasts_S128_S1x128 : S128.ShapeCasts S1x128
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S600000, .i32⟩
  | .hbm, ⟨6, _⟩ => ⟨S600000, .i32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two-layer graph convolution as one function of its arguments, entry by entry, on the extended reals.

  A layer scales every row of its input by that node's source norm, sums the scaled rows along the edges (a map
  `agg` on whole arrays, kept abstract here: both programs spell it with the same gather and scatter-add), scales
  row `r` of the sum by node `r`'s destination norm, and applies an affine map: entry `(r, q)` of the result is the
  sum over `k` of `a (r, k) * W (k, q)`, plus the bias `b q`. The first layer is followed by a maximum with zero.
-/
import Idealize.ShloMosaic.Lib.ValueIdx
import Idealize.ShloMosaic.PureOps.Ideal

noncomputable section

open scoped BigOperators

namespace GraphConv

open Idealize.ShloMosaic Idealize.ShloMosaic.ValueIdx

/-- An `r` by `c` array of extended reals. -/
abbrev Mat (r c : Nat) : Type := FVec Ideal ⟨2, ![r, c]⟩ .f32

/-- Row `p` of `h` times the entry of row `p` of the one-column array `n`. -/
def scaleRows {r c : Nat} (h : Mat r c) (n : Mat r 1) : Mat r c :=
  fun i => h i * n (ix2 (i 0) (0 : Fin 1))

/-- The affine map: entry `(p, q)` is the sum over `j` of `a (p, j) * W (j, q)`, plus the bias row's entry `q`. -/
def affine {r k c : Nat} (a : Mat r k) (W : Mat k c) (b : Mat 1 c) : Mat r c :=
  fun i => (∑ j : Fin k, a (ix2 (i 0) j) * W (ix2 j (i 1))) + b (ix2 (0 : Fin 1) (i 1))

/-- The maximum with zero, entry by entry. -/
def relu {r c : Nat} (a : Mat r c) : Mat r c :=
  fun i => max (a i) (Ideal.ofBits .f32 0x00000000#32)

/-- A length-`n` vector laid as a one-row array. -/
def rowOf {n : Nat} (b : FVec Ideal ⟨1, ![n]⟩ .f32) : Mat 1 n :=
  fun i => b (ix1 (i 1))

/-- The first layer: scale by the source norms, aggregate, scale by the destination norms, affine map, maximum with zero. -/
def hidden (agg : Mat 50000 128 → Mat 50000 128) (ns nd : Mat 50000 1) (x : Mat 50000 128) (W1 : Mat 128 128)
    (b1 : Mat 1 128) : Mat 50000 128 :=
  relu (affine (scaleRows (agg (scaleRows x ns)) nd) W1 b1)

/-- Both layers. -/
def network (agg : Mat 50000 128 → Mat 50000 128) (ns nd : Mat 50000 1) (x : Mat 50000 128) (W1 : Mat 128 128)
    (b1 : Mat 1 128) (W2 : Mat 128 64) (b2 : Mat 1 64) : Mat 50000 64 :=
  affine (scaleRows (agg (scaleRows (hidden agg ns nd x W1 b1) ns)) nd) W2 b2

end GraphConv

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Scale0.lean ====
import proofs.«168207_j120259084570_1_alg».proof.Proof.Gen.KernelIdeal.Frame
import proofs.«168207_j120259084570_1_alg».proof.Proof.Spec
import proofs.«168207_j120259084570_1_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Scale0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GraphConv

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 := funext fun a => by fin_cases a <;> rfl

/-- The body's product at an index: the row block's entry there times the column block's entry of the same row. -/
theorem rowTimesNorm (x0 : Vec Ideal S2000x128 .f32) (x1 : Vec Ideal S2000x1 .f32) (p : Fin 2000) (q : Fin 128) :
    k0_pay1 x1 x0 (ix2 p q) = x0 (ix2 p q) * x1 (ix2 p (0 : Fin 1)) := by
  unfold k0_pay1
  rw [mulf_apply, Keepdims.broadcastTo_a1_ab_apply, shapeCast_self, shapeCast_self]

/-- The three windows' block indices, decided over the grid: the row-block index is the point itself for all three,
    and the lane-block index is zero. -/
theorem blockIndices : ∀ t : Fin cfg0.N, win0_2.index t (0 : Fin 2) = t.val
    ∧ win0_2.index t (1 : Fin 2) = 0
    ∧ win0_0.index t (0 : Fin 2) = t.val
    ∧ win0_0.index t (1 : Fin 2) = 0
    ∧ win0_1.index t (0 : Fin 2) = t.val
    ∧ win0_1.index t (1 : Fin 2) = 0 :=
  (by decide +kernel : ∀ t : Fin grid0.N, _)

/-- What point `t` writes back is block `t` of the row-scaled array. -/
theorem flushedScaled (c : Dev nD) (t : Fin cfg0.N) :
    (dat0 V c).flushed 2 t
      = ((cfg0.win 2).blk t).view.read (Elt Ideal) (scaleRows (V c main_arg0) (V c main_v13)) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S2000x1) zeroOffsets]
  obtain ⟨e0, e1, e2, e3, e4, e5⟩ := blockIndices t
  funext j
  obtain ⟨p, q, rfl⟩ : ∃ (p : Fin 2000) (q : Fin 128), j = ix2 p q := ⟨j 0, j 1, eq_ix2 j⟩
  refine (rowTimesNorm (iblk0 V c 0 t) (iblk0 V c 1 t) p q).trans ?_
  have h0 : ((cfg0.win 0).blk t).view.emb (ix2 p q) = ((cfg0.win 2).blk t).view.emb (ix2 p q) := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1))
      = ix2 ((((cfg0.win 2).blk t).view.emb (ix2 p q)) 0) (0 : Fin 1) := by
    funext a; apply Fin.ext
    match a with
    | ⟨0, _⟩ => show win0_1.index t (0 : Fin 2) * 2000 + 1 * p.val = win0_2.index t (0 : Fin 2) * 2000 + 1 * p.val; omega
    | ⟨1, _⟩ => show win0_1.index t (1 : Fin 2) * 1 + 1 * 0 = 0; omega
  have hA : iblk0 V c 0 t (ix2 p q) = V c main_arg0 (((cfg0.win 2).blk t).view.emb (ix2 p q)) := by
    exact congrArg (V c main_arg0) h0
  have hB : iblk0 V c 1 t (ix2 p (0 : Fin 1))
      = V c main_v13 (ix2 ((((cfg0.win 2).blk t).view.emb (ix2 p q)) 0) (0 : Fin 1)) := by
    exact congrArg (V c main_v13) h1
  exact congrArg₂ (fun a b : Ideal .f32 => a * b) hA hB

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v17).slice (win0_2.rect t)).set ↔ _
  rw [View.set_slice_whole, Rect.mem_set_unit]
  exact Iff.rfl

/-- The 25 blocks of 2000 rows tile the 50000 rows: row `r` is in the block of point `r / 2000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := by
    show (i 0).val / 2000 < 25
    omega
  refine ⟨⟨(i 0).val / 2000, ht⟩, flush0_2 _, ?_⟩
  obtain ⟨e0, e1, -, -, -, -⟩ := blockIndices ⟨(i 0).val / 2000, ht⟩
  have e0' : win0_2.index ⟨(i 0).val / 2000, ht⟩ (0 : Fin 2) = (i 0).val / 2000 := e0
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- The output array after the region: every row of the input times that node's norm. -/
theorem final0 (c : Dev nD) :
    (dat0 (F := Ideal) V c).arrAt 2 cfg0.N = scaleRows (V c main_arg0) (V c main_v13) :=
  (dat0 V c).arrAt_eq_of_cover 2 (scaleRows (V c main_arg0) (V c main_v13))
    (fun t _ => flushedScaled V c t) covered

end Cert.KernelIdeal.Scale0

end
-- ==== Proof.Scale2.lean ====
import proofs.«168207_j120259084570_1_alg».proof.Proof.Gen.KernelIdeal.Frame
import proofs.«168207_j120259084570_1_alg».proof.Proof.Spec
import proofs.«168207_j120259084570_1_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Scale2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GraphConv

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 := funext fun a => by fin_cases a <;> rfl

/-- The body's product at an index: the row block's entry there times the column block's entry of the same row
    (the recasts of either block to its own shape change nothing). -/
theorem rowTimesNorm (x0 : Vec Ideal S2000x128 .f32) (x1 : Vec Ideal S2000x1 .f32) (p : Fin 2000) (q : Fin 128) :
    k2_pay1 x1 x0 (ix2 p q) = x0 (ix2 p q) * x1 (ix2 p (0 : Fin 1)) := by
  unfold k2_pay1
  rw [mulf_apply, Keepdims.broadcastTo_a1_ab_apply, shapeCast_self, shapeCast_self, shapeCast_self]

/-- The three windows' block indices, decided over the grid: the row-block index is the point itself for all three,
    and the lane-block index is zero. -/
theorem blockIndices : ∀ t : Fin cfg2.N, win2_2.index t (0 : Fin 2) = t.val
    ∧ win2_2.index t (1 : Fin 2) = 0
    ∧ win2_0.index t (0 : Fin 2) = t.val
    ∧ win2_0.index t (1 : Fin 2) = 0
    ∧ win2_1.index t (0 : Fin 2) = t.val
    ∧ win2_1.index t (1 : Fin 2) = 0 :=
  (by decide +kernel : ∀ t : Fin grid2.N, _)

/-- What point `t` writes back is block `t` of the row-scaled array. -/
theorem flushedScaled (c : Dev nD) (t : Fin cfg2.N) :
    (dat2 V c).flushed 2 t
      = ((cfg2.win 2).blk t).view.read (Elt Ideal) (scaleRows (V c main_v28) (V c main_v13)) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S2000x1) zeroOffsets]
  obtain ⟨e0, e1, e2, e3, e4, e5⟩ := blockIndices t
  funext j
  obtain ⟨p, q, rfl⟩ : ∃ (p : Fin 2000) (q : Fin 128), j = ix2 p q := ⟨j 0, j 1, eq_ix2 j⟩
  refine (rowTimesNorm (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * q.val = win2_2.index t (1 : Fin 2) * 128 + 1 * q.val; omega
  have h1 : ((cfg2.win 1).blk t).view.emb (ix2 p (0 : Fin 1))
      = ix2 ((((cfg2.win 2).blk t).view.emb (ix2 p q)) 0) (0 : Fin 1) := by
    funext a; apply Fin.ext
    match a with
    | ⟨0, _⟩ => show win2_1.index t (0 : Fin 2) * 2000 + 1 * p.val = win2_2.index t (0 : Fin 2) * 2000 + 1 * p.val; omega
    | ⟨1, _⟩ => show win2_1.index t (1 : Fin 2) * 1 + 1 * 0 = 0; omega
  have hA : iblk2 V c 0 t (ix2 p q) = V c main_v28 (((cfg2.win 2).blk t).view.emb (ix2 p q)) := by
    exact congrArg (V c main_v28) h0
  have hB : iblk2 V c 1 t (ix2 p (0 : Fin 1))
      = V c main_v13 (ix2 ((((cfg2.win 2).blk t).view.emb (ix2 p q)) 0) (0 : Fin 1)) := by
    exact congrArg (V c main_v13) h1
  exact congrArg₂ (fun a b : Ideal .f32 => a * b) hA hB

/-- An index of the output array is in point `t`'s block iff each coordinate is in the block's range on its axis. -/
theorem mem_block (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v29).slice (win2_2.rect t)).set ↔ _
  rw [View.set_slice_whole, Rect.mem_set_unit]
  exact Iff.rfl

/-- The 25 blocks of 2000 rows tile the 50000 rows: row `r` is in the block of point `r / 2000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 2000 < cfg2.N := by
    show (i 0).val / 2000 < 25
    omega
  refine ⟨⟨(i 0).val / 2000, ht⟩, flush2_2 _, ?_⟩
  obtain ⟨e0, e1, -, -, -, -⟩ := blockIndices ⟨(i 0).val / 2000, ht⟩
  have e0' : win2_2.index ⟨(i 0).val / 2000, ht⟩ (0 : Fin 2) = (i 0).val / 2000 := e0
  rw [mem_block]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    omega

/-- The output array after the region: every row of the input times that node's norm. -/
theorem final2 (c : Dev nD) :
    (dat2 (F := Ideal) V c).arrAt 2 cfg2.N = scaleRows (V c main_v28) (V c main_v13) :=
  (dat2 V c).arrAt_eq_of_cover 2 (scaleRows (V c main_v28) (V c main_v13))
    (fun t _ => flushedScaled V c t) covered

end Cert.KernelIdeal.Scale2

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«168207_j120259084570_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.Dense1.lean ====
import proofs.«168207_j120259084570_1_alg».proof.Proof.Gen.KernelIdeal.Frame
import proofs.«168207_j120259084570_1_alg».proof.Proof.Spec
import proofs.«168207_j120259084570_1_alg».proof.Proof.LibKeepdims
import Idealize.ShloMosaic.Lib.Pipeline.Value
import Idealize.ShloMosaic.Lib.ValueIdx
import Idealize.ShloMosaic.Lib.ValueLayout
import proofs.«168207_j120259084570_1_alg».proof.Proof.LibPlainDotAny
import proofs.«168207_j120259084570_1_alg».proof.Proof.LibRowOfVector
import Idealize.ShloMosaic.PureOps.Ideal.Laws

set_option maxRecDepth 16384

noncomputable section

open scoped BigOperators

namespace Cert.KernelIdeal.Dense1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GraphConv

variable (V : (c : Dev nD) → (b : Ref sig .tc) → Buf (Elt Ideal) ((c : Thread nD τ).loc b))

/-- The body's stored value at row `p`, column `q` of its block: the row of the input block scaled by the row's norm,
    times column `q` of the weights, plus the bias entry `q`, then the maximum with zero. -/
theorem pay1_apply (x0 : Vec Ideal S2000x128 .f32) (x1 : Vec Ideal S2000x1 .f32) (w : Vec Ideal S128x128 .f32)
    (b : Vec Ideal S1x128 .f32) (p : Fin 2000) (q : Fin 128) :
    k1_pay1 x1 x0 w b (ix2 p q)
      = max ((∑ k : Fin 128, (x0 (ix2 p k) * x1 (ix2 p (0 : Fin 1))) * w (ix2 k q)) + b (ix2 (0 : Fin 1) q))
          (Ideal.ofBits .f32 0x00000000#32) := by
  unfold k1_pay1
  rw [maximumf_apply, addf_apply, broadcast_apply]
  simp only [shapeCast_self]
  rw [broadcastTo_1b_ab_apply]
  refine congrArg₂ max (congrArg₂ (· + ·) ?_ rfl) rfl
  refine (Idealize.ShloMosaic.PlainDot.matmul_zero_apply_any 2000 128 128 none _ _ (ix2 p q)).trans ?_
  refine Finset.sum_congr rfl fun k _ => ?_
  rw [truncf_apply, truncf_apply, mulf_apply]
  rw [Idealize.ShloMosaic.Keepdims.broadcastTo_a1_ab_apply]

theorem zero_offsets : (![0, 0] : Fin 2 → Nat) = fun _ => 0 := funext fun a => by fin_cases a <;> rfl

/-- The block index maps over the grid: the row-tiled windows are at block row `t`, column block 0; the weights and the
    bias row are at block (0, 0) at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the input block at point `t` is row `2000 t + p` of the input array. -/
theorem input_block_apply (c : Dev nD) (t : Fin cfg1.N) (p : Fin 2000) (k : Fin 128) (r : Fin 50000)
    (hr : r.val = t.val * 2000 + p.val) : iblk1 V c 0 t (ix2 p k) = V c main_v27 (ix2 r k) := by
  obtain ⟨e0, e1, -⟩ := block_indices t
  unfold iblk1
  show V c main_v27 (((cfg1.win 0).blk t).view.emb (ix2 p k)) = V c main_v27 (ix2 r k)
  refine congrArg (V c main_v27) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Row `p` of the norm block at point `t` is row `2000 t + p` of the norm column. -/
theorem norm_block_apply (c : Dev nD) (t : Fin cfg1.N) (p : Fin 2000) (r : Fin 50000)
    (hr : r.val = t.val * 2000 + p.val) : iblk1 V c 1 t (ix2 p (0 : Fin 1)) = V c main_v14 (ix2 r (0 : Fin 1)) := by
  obtain ⟨-, -, e2, e3, -⟩ := block_indices t
  unfold iblk1
  show V c main_v14 (((cfg1.win 1).blk t).view.emb (ix2 p (0 : Fin 1))) = V c main_v14 (ix2 r (0 : Fin 1))
  refine congrArg (V c main_v14) (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- The weights' block at every point is the whole weight matrix. -/
theorem weight_block_apply (c : Dev nD) (t : Fin cfg1.N) (k q : Fin 128) :
    iblk1 V c 2 t (ix2 k q) = V c main_arg1 (ix2 k q) := by
  obtain ⟨-, -, -, -, e4, e5, -⟩ := block_indices t
  unfold iblk1
  show V c main_arg1 (((cfg1.win 2).blk t).view.emb (ix2 k q)) = V c main_arg1 (ix2 k q)
  refine congrArg (V c main_arg1) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias block at every point is the whole bias row. -/
theorem bias_block_apply (c : Dev nD) (t : Fin cfg1.N) (q : Fin 128) :
    iblk1 V c 3 t (ix2 (0 : Fin 1) q) = V c main_v15 (ix2 (0 : Fin 1) q) := by
  obtain ⟨-, -, -, -, -, -, e6, e7, -⟩ := block_indices t
  unfold iblk1
  show V c main_v15 (((cfg1.win 3).blk t).view.emb (ix2 (0 : Fin 1) q)) = V c main_v15 (ix2 (0 : Fin 1) q)
  refine congrArg (V c main_v15) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Entry `(p, q)` of the output block at point `t` sits at `(2000 t + p, q)` in the output array. -/
theorem output_block_emb (t : Fin cfg1.N) (p : Fin 2000) (q : Fin 128) (r : Fin 50000)
    (hr : r.val = t.val * 2000 + p.val) : ((cfg1.win 4).blk t).view.emb (ix2 p q) = ix2 r q := by
  obtain ⟨-, -, -, -, -, -, -, -, e8, e9⟩ := block_indices t
  refine funext fun a => Fin.ext ?_
  match a with
  | ⟨0, _⟩ => show win1_4.index t (0 : Fin 2) * 2000 + 1 * p.val = r.val; omega
  | ⟨1, _⟩ => show win1_4.index t (1 : Fin 2) * 128 + 1 * q.val = q.val; omega

/-- The layer's whole-array value at row `r`, column `q`. -/
theorem layer_apply (A : Mat 50000 128) (n : Mat 50000 1) (W : Mat 128 128) (b : Mat 1 128) (r : Fin 50000) (q : Fin 128) :
    relu (affine (scaleRows A n) W b) (ix2 r q)
      = max ((∑ k : Fin 128, (A (ix2 r k) * n (ix2 r (0 : Fin 1))) * W (ix2 k q)) + b (ix2 (0 : Fin 1) q))
          (Ideal.ofBits .f32 0x00000000#32) := rfl

/-- What point `t` writes back is block `t` of the layer's whole-array value. -/
theorem flushed1_eq (c : Dev nD) (t : Fin cfg1.N) :
    (dat1 (F := Ideal) V c).flushed 4 t
      = ((cfg1.win 4).blk t).view.read (Elt Ideal)
          (relu (affine (scaleRows (V c main_v27) (V c main_v14)) (V c main_arg1) (V c main_v15))) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S128x128) zero_offsets, View.ld_unit_zero (S := S1x128) zero_offsets]
  funext j
  obtain ⟨p, q, rfl⟩ : ∃ (p : Fin 2000) (q : Fin 128), j = ix2 p q := ⟨j 0, j 1, eq_ix2 j⟩
  have ht : t.val < 25 := t.isLt
  have hp : p.val < 2000 := p.isLt
  let r : Fin 50000 := ⟨t.val * 2000 + p.val, by omega⟩
  have hr : r.val = t.val * 2000 + p.val := rfl
  refine (pay1_apply (iblk1 V c 0 t) (iblk1 V c 1 t) (iblk1 V c 2 t) (iblk1 V c 3 t) p q).trans ?_
  show _ = relu (affine (scaleRows (V c main_v27) (V c main_v14)) (V c main_arg1) (V c main_v15))
      (((cfg1.win 4).blk t).view.emb (ix2 p q))
  rw [output_block_emb t p q r hr, norm_block_apply V c t p r hr, bias_block_apply V c t q]
  refine Eq.trans ?_ (layer_apply (V c main_v27) (V c main_v14) (V c main_arg1) (V c main_v15) r q).symm
  refine congrArg₂ max (congrArg₂ (· + ·) (Finset.sum_congr rfl fun k _ => ?_) rfl) rfl
  rw [input_block_apply V c t p k r hr, weight_block_apply V c t k q]

/-- An index of the output array is in point `t`'s block iff each coordinate is in the block's range on its axis. -/
theorem mem_output_block (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v28).slice (win1_4.rect t)).set ↔ _
  rw [View.set_slice_whole, Rect.mem_set_unit]
  exact Iff.rfl

/-- The 25 blocks of 2000 rows tile the 50000 rows: row `r` is in the block of point `r / 2000`. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : (i 0).val / 2000 < cfg1.N := by show _ < 25; omega
  obtain ⟨-, -, -, -, -, -, -, -, e8, e9⟩ := block_indices ⟨(i 0).val / 2000, hN⟩
  refine ⟨⟨(i 0).val / 2000, hN⟩, flush1_4 _, ?_⟩
  rw [mem_output_block]
  intro a
  match a with
  | ⟨0, _⟩ =>
    show win1_4.index ⟨(i 0).val / 2000, hN⟩ (0 : Fin 2) * 2000 ≤ (i 0).val
      ∧ (i 0).val < win1_4.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win1_4.index ⟨(i 0).val / 2000, hN⟩ (1 : Fin 2) * 128 ≤ (i 1).val
      ∧ (i 1).val < win1_4.index ⟨(i 0).val / 2000, hN⟩ (1 : Fin 2) * 128 + 128
    rw [e9]; omega

theorem final1 (c : Dev nD) :
    (dat1 (F := Ideal) V c).arrAt 4 cfg1.N
      = relu (affine (scaleRows (V c main_v27) (V c main_v14)) (V c main_arg1) (V c main_v15)) :=
  (dat1 (F := Ideal) V c).arrAt_eq_of_cover 4 _ (fun t _ => flushed1_eq V c t) covered

end Cert.KernelIdeal.Dense1

end
-- ==== Proof.Dense3.lean ====
import proofs.«168207_j120259084570_1_alg».proof.Proof.Gen.KernelIdeal.Frame
import proofs.«168207_j120259084570_1_alg».proof.Proof.Spec
import proofs.«168207_j120259084570_1_alg».proof.Proof.LibKeepdims
import Idealize.ShloMosaic.Lib.Pipeline.Value
import Idealize.ShloMosaic.Lib.ValueIdx
import Idealize.ShloMosaic.Lib.ValueLayout
import proofs.«168207_j120259084570_1_alg».proof.Proof.LibPlainDotAny
import proofs.«168207_j120259084570_1_alg».proof.Proof.LibRowOfVector
import Idealize.ShloMosaic.PureOps.Ideal.Laws

set_option maxRecDepth 16384

noncomputable section

open scoped BigOperators

namespace Cert.KernelIdeal.Dense3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen GraphConv

variable (V : (c : Dev nD) → (b : Ref sig .tc) → Buf (Elt Ideal) ((c : Thread nD τ).loc b))

/-- The body's stored value at row `p`, column `q` of its block: the row of the input block scaled by the row's norm,
    times column `q` of the weights, plus the bias entry `q`. -/
theorem pay3_apply (x0 : Vec Ideal S2000x128 .f32) (x1 : Vec Ideal S2000x1 .f32) (w : Vec Ideal S128x64 .f32)
    (b : Vec Ideal S1x64 .f32) (p : Fin 2000) (q : Fin 64) :
    k3_pay1 x1 x0 w b (ix2 p q)
      = (∑ k : Fin 128, (x0 (ix2 p k) * x1 (ix2 p (0 : Fin 1))) * w (ix2 k q)) + b (ix2 (0 : Fin 1) q) := by
  unfold k3_pay1
  rw [addf_apply]
  simp only [shapeCast_self]
  rw [broadcastTo_1b_ab_apply]
  refine congrArg₂ (· + ·) ?_ rfl
  refine (Idealize.ShloMosaic.PlainDot.matmul_zero_apply_any 2000 128 64 none _ _ (ix2 p q)).trans ?_
  refine Finset.sum_congr rfl fun k _ => ?_
  rw [truncf_apply, truncf_apply, mulf_apply]
  rw [Idealize.ShloMosaic.Keepdims.broadcastTo_a1_ab_apply]

theorem zero_offsets : (![0, 0] : Fin 2 → Nat) = fun _ => 0 := funext fun a => by fin_cases a <;> rfl

/-- The block index maps over the grid: the row-tiled windows are at block row `t`, column block 0; the weights and the
    bias row are at block (0, 0) at every point. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of the input block at point `t` is row `2000 t + p` of the input array. -/
theorem input_block_apply (c : Dev nD) (t : Fin cfg3.N) (p : Fin 2000) (k : Fin 128) (r : Fin 50000)
    (hr : r.val = t.val * 2000 + p.val) : iblk3 V c 0 t (ix2 p k) = V c main_v39 (ix2 r k) := by
  obtain ⟨e0, e1, -⟩ := block_indices t
  unfold iblk3
  show V c main_v39 (((cfg3.win 0).blk t).view.emb (ix2 p k)) = V c main_v39 (ix2 r k)
  refine congrArg (V c main_v39) (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- Row `p` of the norm block at point `t` is row `2000 t + p` of the norm column. -/
theorem norm_block_apply (c : Dev nD) (t : Fin cfg3.N) (p : Fin 2000) (r : Fin 50000)
    (hr : r.val = t.val * 2000 + p.val) : iblk3 V c 1 t (ix2 p (0 : Fin 1)) = V c main_v14 (ix2 r (0 : Fin 1)) := by
  obtain ⟨-, -, e2, e3, -⟩ := block_indices t
  unfold iblk3
  show V c main_v14 (((cfg3.win 1).blk t).view.emb (ix2 p (0 : Fin 1))) = V c main_v14 (ix2 r (0 : Fin 1))
  refine congrArg (V c main_v14) (funext fun a => Fin.ext ?_)
  match a with
  | ⟨0, _⟩ => show win3_1.index t (0 : Fin 2) * 2000 + 1 * p.val = r.val; omega
  | ⟨1, _⟩ => show win3_1.index t (1 : Fin 2) * 1 + 1 * 0 = 0; omega

/-- The weights' block at every point is the whole weight matrix. -/
theorem weight_block_apply (c : Dev nD) (t : Fin cfg3.N) (k : Fin 128) (q : Fin 64) :
    iblk3 V c 2 t (ix2 k q) = V c main_arg3 (ix2 k q) := by
  obtain ⟨-, -, -, -, e4, e5, -⟩ := block_indices t
  unfold iblk3
  show V c main_arg3 (((cfg3.win 2).blk t).view.emb (ix2 k q)) = V c main_arg3 (ix2 k q)
  refine congrArg (V c main_arg3) (funext fun a => Fin.ext ?_)
  match a with
  | ⟨0, _⟩ => show win3_2.index t (0 : Fin 2) * 128 + 1 * k.val = k.val; omega
  | ⟨1, _⟩ => show win3_2.index t (1 : Fin 2) * 64 + 1 * q.val = q.val; omega

/-- The bias block at every point is the whole bias row. -/
theorem bias_block_apply (c : Dev nD) (t : Fin cfg3.N) (q : Fin 64) :
    iblk3 V c 3 t (ix2 (0 : Fin 1) q) = V c main_v16 (ix2 (0 : Fin 1) q) := by
  obtain ⟨-, -, -, -, -, -, e6, e7, -⟩ := block_indices t
  unfold iblk3
  show V c main_v16 (((cfg3.win 3).blk t).view.emb (ix2 (0 : Fin 1) q)) = V c main_v16 (ix2 (0 : Fin 1) q)
  refine congrArg (V c main_v16) (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- Entry `(p, q)` of the output block at point `t` sits at `(2000 t + p, q)` in the output array. -/
theorem output_block_emb (t : Fin cfg3.N) (p : Fin 2000) (q : Fin 64) (r : Fin 50000)
    (hr : r.val = t.val * 2000 + p.val) : ((cfg3.win 4).blk t).view.emb (ix2 p q) = ix2 r q := by
  obtain ⟨-, -, -, -, -, -, -, -, e8, e9⟩ := block_indices t
  refine funext fun a => Fin.ext ?_
  match a with
  | ⟨0, _⟩ => show win3_4.index t (0 : Fin 2) * 2000 + 1 * p.val = r.val; omega
  | ⟨1, _⟩ => show win3_4.index t (1 : Fin 2) * 64 + 1 * q.val = q.val; omega

/-- The layer's whole-array value at row `r`, column `q`. -/
theorem layer_apply (A : Mat 50000 128) (n : Mat 50000 1) (W : Mat 128 64) (b : Mat 1 64) (r : Fin 50000) (q : Fin 64) :
    affine (scaleRows A n) W b (ix2 r q)
      = (∑ k : Fin 128, (A (ix2 r k) * n (ix2 r (0 : Fin 1))) * W (ix2 k q)) + b (ix2 (0 : Fin 1) q) := rfl

/-- What point `t` writes back is block `t` of the layer's whole-array value. -/
theorem flushed3_eq (c : Dev nD) (t : Fin cfg3.N) :
    (dat3 (F := Ideal) V c).flushed 4 t
      = ((cfg3.win 4).blk t).view.read (Elt Ideal)
          (affine (scaleRows (V c main_v39) (V c main_v14)) (V c main_arg3) (V c main_v16)) := by
  show (cfg3.win 4).cut (grid3.coords t) ((dat3 V c).after 4 t) = _
  rw [after3_4]
  unfold out3_4
  rw [View.canon_unit_zero zero_offsets]
  simp only [View.ld_unit_zero (S := S2000x128) zero_offsets, View.ld_unit_zero (S := S2000x1) zero_offsets,
    View.ld_unit_zero (S := S128x64) zero_offsets, View.ld_unit_zero (S := S1x64) zero_offsets]
  funext j
  obtain ⟨p, q, rfl⟩ : ∃ (p : Fin 2000) (q : Fin 64), j = ix2 p q := ⟨j 0, j 1, eq_ix2 j⟩
  have ht : t.val < 25 := t.isLt
  have hp : p.val < 2000 := p.isLt
  let r : Fin 50000 := ⟨t.val * 2000 + p.val, by omega⟩
  have hr : r.val = t.val * 2000 + p.val := rfl
  refine (pay3_apply (iblk3 V c 0 t) (iblk3 V c 1 t) (iblk3 V c 2 t) (iblk3 V c 3 t) p q).trans ?_
  show _ = affine (scaleRows (V c main_v39) (V c main_v14)) (V c main_arg3) (V c main_v16)
      (((cfg3.win 4).blk t).view.emb (ix2 p q))
  rw [output_block_emb t p q r hr, norm_block_apply V c t p r hr, bias_block_apply V c t q]
  refine Eq.trans ?_ (layer_apply (V c main_v39) (V c main_v14) (V c main_arg3) (V c main_v16) r q).symm
  refine congrArg₂ (· + ·) (Finset.sum_congr rfl fun k _ => ?_) rfl
  rw [input_block_apply V c t p k r hr, weight_block_apply V c t k q]

/-- An index of the output array is in point `t`'s block iff each coordinate is in the block's range on its axis. -/
theorem mem_output_block (t : Fin cfg3.N) (i : S50000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v40).slice (win3_4.rect t)).set ↔ _
  rw [View.set_slice_whole, Rect.mem_set_unit]
  exact Iff.rfl

/-- The 25 blocks of 2000 rows tile the 50000 rows: row `r` is in the block of point `r / 2000`. -/
theorem covered (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : (i 0).val / 2000 < cfg3.N := by show _ < 25; omega
  obtain ⟨-, -, -, -, -, -, -, -, e8, e9⟩ := block_indices ⟨(i 0).val / 2000, hN⟩
  refine ⟨⟨(i 0).val / 2000, hN⟩, flush3_4 _, ?_⟩
  rw [mem_output_block]
  intro a
  match a with
  | ⟨0, _⟩ =>
    show win3_4.index ⟨(i 0).val / 2000, hN⟩ (0 : Fin 2) * 2000 ≤ (i 0).val
      ∧ (i 0).val < win3_4.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win3_4.index ⟨(i 0).val / 2000, hN⟩ (1 : Fin 2) * 64 ≤ (i 1).val
      ∧ (i 1).val < win3_4.index ⟨(i 0).val / 2000, hN⟩ (1 : Fin 2) * 64 + 64
    rw [e9]; omega

theorem final3 (c : Dev nD) :
    (dat3 (F := Ideal) V c).arrAt 4 cfg3.N
      = affine (scaleRows (V c main_v39) (V c main_v14)) (V c main_arg3) (V c main_v16) :=
  (dat3 (F := Ideal) V c).arrAt_eq_of_cover 4 _ (fun t _ => flushed3_eq V c t) covered

end Cert.KernelIdeal.Dense3

end
-- ==== Proof.Walk.lean ====
/-
  The contents of the result buffer when the idealized kernel program returns, as the two-layer network of its arguments.

  The program alternates host stretches and four pipelined regions. Read backwards from the last region: its output
  array is the affine map of the second aggregate scaled by the destination norms; the aggregate is the host's
  gather and scatter-add of the third region's output, the hidden layer scaled by the source norms; the hidden layer is
  the second region's output, the first aggregate through the first affine map and the maximum with zero; the first
  aggregate is the gather and scatter-add of the first region's output, the features scaled by the source norms. The norm
  columns, the weights, the bias rows and the two index arrays are written once, before the first region, and every
  later stretch and region leaves them as they are.
-/
import proofs.«168207_j120259084570_1_alg».proof.Proof.Gen.KernelIdeal.Frame
import proofs.«168207_j120259084570_1_alg».proof.Proof.Spec
import proofs.«168207_j120259084570_1_alg».proof.Proof.Scale0
import proofs.«168207_j120259084570_1_alg».proof.Proof.Scale2
import proofs.«168207_j120259084570_1_alg».proof.Proof.Dense1
import proofs.«168207_j120259084570_1_alg».proof.Proof.Dense3
import proofs.«168207_j120259084570_1_alg».proof.Proof.LibRowOfVector
import Idealize.ShloMosaic.Lib.StableHlo.Run
import Idealize.ShloMosaic.PureOps.Ideal

set_option maxRecDepth 16384

noncomputable section

namespace Cert.KernelIdeal.Walk

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen GraphConv
open Idealize.ShloMosaic.ValueIdx

/-- The sum along the edges: row `e` of the gathered array is row `src e` of `h` (a negative index counted from the end),
    and the gathered rows are added into the rows `dst e` of a zero array. -/
def agg (src dst : IVec S600000 32) (h : FVec Ideal S50000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A node's norm as a one-column array: the reciprocal square root of its degree (the number of edges whose index
    entry is the node), the degree raised to at least one. -/
def normCol (idx : IVec S600000 32) : FVec Ideal S50000x1 .f32 :=
  broadcastInDim S50000x1 ![0] bcast_S50000_S50000x1_0
    (Host.rsqrt (F := Ideal)
      (maximumf
        (Host.scatterAdd (F := Ideal) scatter_S50000_S600000x1_S600000_n_0_0_1
          (broadcastInDim S50000 ![] bcast_S_S50000 (constant (F := Ideal) S_ .f32 0x00000000#32))
          (broadcastInDim S600000x1 ![0] bcast_S600000_S600000x1_0 idx)
          (broadcastInDim S600000 ![] bcast_S_S600000 (constant (F := Ideal) S_ .f32 0x3F800000#32)))
        (broadcastInDim S50000 ![] bcast_S_S50000 (constant (F := Ideal) S_ .f32 0x3F800000#32))))

variable (m : (ℓ : Loc nD τ sig) → Buf (Elt Ideal) ℓ) (ρ : Dev nD → PrngReg)

/-- A host stretch leaves a buffer that none of its operations writes. -/
local macro "kept_by_host" : tactic => `(tactic|
  (refine StableHlo.after_of_forall_not_mem _ _ (List.forall_iff_forall_mem.mp ?_)
   simp only [hostOps0, hostOps1, hostOps3, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-! ## Before the first region -/

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by kept_by_host).trans rfl
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by kept_by_host).trans rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by kept_by_host).trans rfl
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by kept_by_host).trans rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by kept_by_host).trans rfl

/-- The source norms' column. -/
theorem W1_v13 (c : Dev nD) : W1 m ρ c (Proc.devRef .tc main_v13) = normCol (m ((c : Thread nD τ).loc main_arg5)) := by
  show StableHlo.after hostOps0 (W0 m ρ c) (Proc.devRef .tc main_v13) = _
  after_results
  rfl
/-- The destination norms' column. -/
theorem W1_v14 (c : Dev nD) : W1 m ρ c (Proc.devRef .tc main_v14) = normCol (m ((c : Thread nD τ).loc main_arg6)) := by
  show StableHlo.after hostOps0 (W0 m ρ c) (Proc.devRef .tc main_v14) = _
  after_results
  rfl
/-- The first bias as a row. -/
theorem W1_v15 (c : Dev nD) : W1 m ρ c (Proc.devRef .tc main_v15)
    = shapeCast S1x128 (m ((c : Thread nD τ).loc main_arg2)) shapeCasts_S128_S1x128 := by
  show StableHlo.after hostOps0 (W0 m ρ c) (Proc.devRef .tc main_v15) = _
  after_results
  rfl
/-- The second bias as a row. -/
theorem W1_v16 (c : Dev nD) : W1 m ρ c (Proc.devRef .tc main_v16)
    = shapeCast S1x64 (m ((c : Thread nD τ).loc main_arg4)) shapeCasts_S64_S1x64 := by
  show StableHlo.after hostOps0 (W0 m ρ c) (Proc.devRef .tc main_v16) = _
  after_results
  rfl

/-! ## Across the first region: it writes `main_v17` only -/

theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_v13 (c : Dev nD) : W2 m ρ c (Proc.devRef .tc main_v13) = W1 m ρ c (Proc.devRef .tc main_v13) :=
  (W2_arr m ρ c 1).trans (((dat0 (V1 m ρ) c).arrAt_in 1 rfl _).trans (A_eq0 (V1 m ρ) c 1))
theorem W2_arg1 (c : Dev nD) : W2 m ρ c (Proc.devRef .tc main_arg1) = W1 m ρ c (Proc.devRef .tc main_arg1) := W2_of_ne m ρ c main_arg1 (by decide)
theorem W2_arg3 (c : Dev nD) : W2 m ρ c (Proc.devRef .tc main_arg3) = W1 m ρ c (Proc.devRef .tc main_arg3) := W2_of_ne m ρ c main_arg3 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_v14 (c : Dev nD) : W2 m ρ c (Proc.devRef .tc main_v14) = W1 m ρ c (Proc.devRef .tc main_v14) := W2_of_ne m ρ c main_v14 (by decide)
theorem W2_v15 (c : Dev nD) : W2 m ρ c (Proc.devRef .tc main_v15) = W1 m ρ c (Proc.devRef .tc main_v15) := W2_of_ne m ρ c main_v15 (by decide)
theorem W2_v16 (c : Dev nD) : W2 m ρ c (Proc.devRef .tc main_v16) = W1 m ρ c (Proc.devRef .tc main_v16) := W2_of_ne m ρ c main_v16 (by decide)

/-- The first region's output: the features scaled by the source norms. -/
theorem W2_v17 (c : Dev nD) : W2 m ρ c (Proc.devRef .tc main_v17)
    = scaleRows (m ((c : Thread nD τ).loc main_arg0)) (normCol (m ((c : Thread nD τ).loc main_arg5))) := by
  refine (W2_arr m ρ c 2).trans ((Scale0.final0 (V1 m ρ) c).trans ?_)
  show scaleRows (W1 m ρ c (Proc.devRef .tc main_arg0)) (W1 m ρ c (Proc.devRef .tc main_v13)) = _
  rw [W1_arg0, W1_v13]

/-! ## The second stretch: the first aggregate -/

theorem W3_arg1 (c : Dev nD) : W3 m ρ c (Proc.devRef .tc main_arg1) = W2 m ρ c (Proc.devRef .tc main_arg1) := by kept_by_host
theorem W3_arg3 (c : Dev nD) : W3 m ρ c (Proc.devRef .tc main_arg3) = W2 m ρ c (Proc.devRef .tc main_arg3) := by kept_by_host
theorem W3_arg5 (c : Dev nD) : W3 m ρ c (Proc.devRef .tc main_arg5) = W2 m ρ c (Proc.devRef .tc main_arg5) := by kept_by_host
theorem W3_arg6 (c : Dev nD) : W3 m ρ c (Proc.devRef .tc main_arg6) = W2 m ρ c (Proc.devRef .tc main_arg6) := by kept_by_host
theorem W3_v13 (c : Dev nD) : W3 m ρ c (Proc.devRef .tc main_v13) = W2 m ρ c (Proc.devRef .tc main_v13) := by kept_by_host
theorem W3_v14 (c : Dev nD) : W3 m ρ c (Proc.devRef .tc main_v14) = W2 m ρ c (Proc.devRef .tc main_v14) := by kept_by_host
theorem W3_v15 (c : Dev nD) : W3 m ρ c (Proc.devRef .tc main_v15) = W2 m ρ c (Proc.devRef .tc main_v15) := by kept_by_host
theorem W3_v16 (c : Dev nD) : W3 m ρ c (Proc.devRef .tc main_v16) = W2 m ρ c (Proc.devRef .tc main_v16) := by kept_by_host

theorem W3_v27 (c : Dev nD) : W3 m ρ c (Proc.devRef .tc main_v27)
    = agg (W2 m ρ c (Proc.devRef .tc main_arg5)) (W2 m ρ c (Proc.devRef .tc main_arg6)) (W2 m ρ c (Proc.devRef .tc main_v17)) := by
  show StableHlo.after hostOps1 (W2 m ρ c) (Proc.devRef .tc main_v27) = _
  after_results
  rfl

/-- The hidden layer, as the second region leaves it. -/
abbrev hid (c : Dev nD) : Mat 50000 128 :=
  hidden (agg (m ((c : Thread nD τ).loc main_arg5)) (m ((c : Thread nD τ).loc main_arg6)))
    (normCol (m ((c : Thread nD τ).loc main_arg5))) (normCol (m ((c : Thread nD τ).loc main_arg6)))
    (m ((c : Thread nD τ).loc main_arg0)) (m ((c : Thread nD τ).loc main_arg1))
    (shapeCast S1x128 (m ((c : Thread nD τ).loc main_arg2)) shapeCasts_S128_S1x128)

/-! ## Across the second region: it writes `main_v28` only -/

theorem W4_v28 (c : Dev nD) : W4 m ρ c (Proc.devRef .tc main_v28) = hid m c := by
  refine (W4_arr m ρ c 4).trans ((Dense1.final1 (V3 m ρ) c).trans ?_)
  show relu (affine (scaleRows (W3 m ρ c (Proc.devRef .tc main_v27)) (W3 m ρ c (Proc.devRef .tc main_v14)))
    (W3 m ρ c (Proc.devRef .tc main_arg1)) (W3 m ρ c (Proc.devRef .tc main_v15))) = _
  rw [W3_v27, W2_v17, W2_arg5, W2_arg6, W1_arg5, W1_arg6, W3_v14, W2_v14, W1_v14, W3_arg1, W2_arg1, W1_arg1, W3_v15, W2_v15,
    W1_v15]
  rfl
theorem W4_v13 (c : Dev nD) : W4 m ρ c (Proc.devRef .tc main_v13) = W3 m ρ c (Proc.devRef .tc main_v13) := W4_of_ne m ρ c main_v13 (by decide)
theorem W4_v14 (c : Dev nD) : W4 m ρ c (Proc.devRef .tc main_v14) = W3 m ρ c (Proc.devRef .tc main_v14) :=
  (W4_arr m ρ c 1).trans (((dat1 (V3 m ρ) c).arrAt_in 1 rfl _).trans (A_eq1 (V3 m ρ) c 1))
theorem W4_arg3 (c : Dev nD) : W4 m ρ c (Proc.devRef .tc main_arg3) = W3 m ρ c (Proc.devRef .tc main_arg3) := W4_of_ne m ρ c main_arg3 (by decide)
theorem W4_arg5 (c : Dev nD) : W4 m ρ c (Proc.devRef .tc main_arg5) = W3 m ρ c (Proc.devRef .tc main_arg5) := W4_of_ne m ρ c main_arg5 (by decide)
theorem W4_arg6 (c : Dev nD) : W4 m ρ c (Proc.devRef .tc main_arg6) = W3 m ρ c (Proc.devRef .tc main_arg6) := W4_of_ne m ρ c main_arg6 (by decide)
theorem W4_v16 (c : Dev nD) : W4 m ρ c (Proc.devRef .tc main_v16) = W3 m ρ c (Proc.devRef .tc main_v16) := W4_of_ne m ρ c main_v16 (by decide)

/-! ## Across the third region: it writes `main_v29` only -/

/-- The third region's output: the hidden layer scaled by the source norms. -/
theorem W5_v29 (c : Dev nD) : W5 m ρ c (Proc.devRef .tc main_v29)
    = scaleRows (hid m c) (normCol (m ((c : Thread nD τ).loc main_arg5))) := by
  refine (W5_arr m ρ c 2).trans ((Scale2.final2 (V4 m ρ) c).trans ?_)
  show scaleRows (W4 m ρ c (Proc.devRef .tc main_v28)) (W4 m ρ c (Proc.devRef .tc main_v13)) = _
  rw [W4_v28, W4_v13, W3_v13, W2_v13, W1_v13]
theorem W5_v14 (c : Dev nD) : W5 m ρ c (Proc.devRef .tc main_v14) = W4 m ρ c (Proc.devRef .tc main_v14) := W5_of_ne m ρ c main_v14 (by decide)
theorem W5_arg3 (c : Dev nD) : W5 m ρ c (Proc.devRef .tc main_arg3) = W4 m ρ c (Proc.devRef .tc main_arg3) := W5_of_ne m ρ c main_arg3 (by decide)
theorem W5_arg5 (c : Dev nD) : W5 m ρ c (Proc.devRef .tc main_arg5) = W4 m ρ c (Proc.devRef .tc main_arg5) := W5_of_ne m ρ c main_arg5 (by decide)
theorem W5_arg6 (c : Dev nD) : W5 m ρ c (Proc.devRef .tc main_arg6) = W4 m ρ c (Proc.devRef .tc main_arg6) := W5_of_ne m ρ c main_arg6 (by decide)
theorem W5_v16 (c : Dev nD) : W5 m ρ c (Proc.devRef .tc main_v16) = W4 m ρ c (Proc.devRef .tc main_v16) := W5_of_ne m ρ c main_v16 (by decide)

/-! ## The last stretch: the second aggregate -/

theorem W6_v14 (c : Dev nD) : W6 m ρ c (Proc.devRef .tc main_v14) = W5 m ρ c (Proc.devRef .tc main_v14) := by kept_by_host
theorem W6_arg3 (c : Dev nD) : W6 m ρ c (Proc.devRef .tc main_arg3) = W5 m ρ c (Proc.devRef .tc main_arg3) := by kept_by_host
theorem W6_v16 (c : Dev nD) : W6 m ρ c (Proc.devRef .tc main_v16) = W5 m ρ c (Proc.devRef .tc main_v16) := by kept_by_host

theorem W6_v39 (c : Dev nD) : W6 m ρ c (Proc.devRef .tc main_v39)
    = agg (W5 m ρ c (Proc.devRef .tc main_arg5)) (W5 m ρ c (Proc.devRef .tc main_arg6)) (W5 m ρ c (Proc.devRef .tc main_v29)) := by
  show StableHlo.after hostOps3 (W5 m ρ c) (Proc.devRef .tc main_v39) = _
  after_results
  rfl

/-! ## The result -/

/-- The first bias laid as a row by a recast: the row's entry `q` is the vector's. -/
theorem row128 (b : FVec Ideal S128 .f32) : shapeCast S1x128 b shapeCasts_S128_S1x128 = rowOf b := by
  funext i
  obtain ⟨p, q, rfl⟩ : ∃ (p : Fin 1) (q : Fin 128), i = ix2 p q := ⟨i 0, i 1, eq_ix2 i⟩
  obtain rfl : p = 0 := Subsingleton.elim _ _
  exact RowOfVector.apply b _ q

/-- The same for the second bias. -/
theorem row64 (b : FVec Ideal S64 .f32) : shapeCast S1x64 b shapeCasts_S64_S1x64 = rowOf b := by
  funext i
  obtain ⟨p, q, rfl⟩ : ∃ (p : Fin 1) (q : Fin 64), i = ix2 p q := ⟨i 0, i 1, eq_ix2 i⟩
  obtain rfl : p = 0 := Subsingleton.elim _ _
  exact RowOfVector.apply b _ q

/-- When the program returns, the result buffer holds the two-layer network of the arguments. -/
theorem out_value (c : Dev nD) : W7 m ρ c (Proc.devRef .tc main_v40)
    = network (agg (m ((c : Thread nD τ).loc main_arg5)) (m ((c : Thread nD τ).loc main_arg6)))
        (normCol (m ((c : Thread nD τ).loc main_arg5))) (normCol (m ((c : Thread nD τ).loc main_arg6)))
        (m ((c : Thread nD τ).loc main_arg0)) (m ((c : Thread nD τ).loc main_arg1))
        (rowOf (m ((c : Thread nD τ).loc main_arg2)))
        (m ((c : Thread nD τ).loc main_arg3))
        (rowOf (m ((c : Thread nD τ).loc main_arg4))) := by
  refine (W7_arr m ρ c 4).trans ((Dense3.final3 (V6 m ρ) c).trans ?_)
  show affine (scaleRows (W6 m ρ c (Proc.devRef .tc main_v39)) (W6 m ρ c (Proc.devRef .tc main_v14)))
    (W6 m ρ c (Proc.devRef .tc main_arg3)) (W6 m ρ c (Proc.devRef .tc main_v16)) = _
  rw [W6_v39, W5_v29, W5_arg5, W4_arg5, W3_arg5, W2_arg5, W1_arg5, W5_arg6, W4_arg6, W3_arg6, W2_arg6, W1_arg6,
    W6_v14, W5_v14, W4_v14, W3_v14, W2_v14, W1_v14, W6_arg3, W5_arg3, W4_arg3, W3_arg3, W2_arg3, W1_arg3,
    W6_v16, W5_v16, W4_v16, W3_v16, W2_v16, W1_v16, row64]
  show network _ _ _ _ _ (shapeCast S1x128 (m ((c : Thread nD τ).loc main_arg2)) shapeCasts_S128_S1x128) _ _ = _
  rw [row128]

end Cert.KernelIdeal.Walk

end
-- ==== Proof.RefValue.lean ====
/-
  The reference's result as the two-layer network of its arguments.

  The reference spells every step with whole-array host operations: a product with the norm column repeated along the
  rows, a matrix product, a sum with the bias laid as a row and repeated down the rows, a maximum with a zero array. Read at
  an entry these are the specification's row scaling, affine map and maximum with zero; the gather and scatter-add, and the
  degrees' scatter-add under the reciprocal square root, are kept whole.
-/
import proofs.«168207_j120259084570_1_alg».proof.Proof.Gen.ReferenceIdeal.Run
import proofs.«168207_j120259084570_1_alg».proof.Proof.Gen.ReferenceIdeal.Read
import proofs.«168207_j120259084570_1_alg».proof.Proof.Spec
import proofs.«168207_j120259084570_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen GraphConv

/-- The sum along the edges, in the reference's spelling. -/
def agg (src dst : IVec S600000 32) (h : FVec Ideal S50000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A node's norm as a one-column array, in the reference's spelling. -/
def normCol (idx : IVec S600000 32) : FVec Ideal S50000x1 .f32 :=
  broadcastInDim S50000x1 ![0] bcast_S50000_S50000x1_0
    (Host.rsqrt (F := Ideal)
      (maximumf
        (Host.scatterAdd (F := Ideal) scatter_S50000_S600000x1_S600000_n_0_0_1
          (broadcastInDim S50000 ![] bcast_S_S50000 (constant (F := Ideal) S_ .f32 0x00000000#32))
          (broadcastInDim S600000x1 ![0] bcast_S600000_S600000x1_0 idx)
          (broadcastInDim S600000 ![] bcast_S_S600000 (constant (F := Ideal) S_ .f32 0x3F800000#32)))
        (broadcastInDim S50000 ![] bcast_S_S50000 (constant (F := Ideal) S_ .f32 0x3F800000#32))))

/-- A product with a one-column array repeated along the rows scales each row by the column's entry. -/
theorem mul_col_eq (h : FVec Ideal S50000x128 .f32) (n : FVec Ideal S50000x1 .f32) :
    mulf h (broadcastInDim S50000x128 ![0, 1] bcast_S50000x1_S50000x128_0_1 n) = scaleRows h n := by
  funext i
  show h i * broadcastInDim S50000x128 ![0, 1] bcast_S50000x1_S50000x128_0_1 n i = h i * n (ix2 (i 0) (0 : Fin 1))
  refine congrArg (h i * ·) ?_
  exact broadcastInDim_apply _ bcast_S50000x1_S50000x128_0_1 n i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- The matrix product plus the bias row repeated down the rows is the affine map (width 128). -/
theorem dense128_eq (a : FVec Ideal S50000x128 .f32) (W : FVec Ideal S128x128 .f32) (b : FVec Ideal S1x128 .f32) :
    addf (Host.dotGeneral (F := Ideal) dot_S50000x128_S128x128_S50000x128_1_0_0_1_n_n none a W)
      (broadcastInDim S50000x128 ![0, 1] bcast_S1x128_S50000x128_0_1 b) = affine a W b := by
  funext i
  show Host.dotGeneral (F := Ideal) dot_S50000x128_S128x128_S50000x128_1_0_0_1_n_n none a W i
      + broadcastInDim S50000x128 ![0, 1] bcast_S1x128_S50000x128_0_1 b i
    = (∑ j : Fin 128, a (ix2 (i 0) j) * W (ix2 j (i 1))) + b (ix2 (0 : Fin 1) (i 1))
  have e1 : Host.dotGeneral (F := Ideal) dot_S50000x128_S128x128_S50000x128_1_0_0_1_n_n none a W i
      = ∑ j : Fin 128, a (ix2 (i 0) j) * W (ix2 j (i 1)) := by
    simp only [Host.dotGeneral]
    exact PlainDot.dotGeneral_apply 50000 128 128 none _ a W i
  have e2 : broadcastInDim S50000x128 ![0, 1] bcast_S1x128_S50000x128_0_1 b i = b (ix2 (0 : Fin 1) (i 1)) :=
    broadcastInDim_apply _ bcast_S1x128_S50000x128_0_1 b i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [e1, e2]

/-- The matrix product plus the bias row repeated down the rows is the affine map (width 64). -/
theorem dense64_eq (a : FVec Ideal S50000x128 .f32) (W : FVec Ideal S128x64 .f32) (b : FVec Ideal S1x64 .f32) :
    addf (Host.dotGeneral (F := Ideal) dot_S50000x128_S128x64_S50000x64_1_0_0_1_n_n none a W)
      (broadcastInDim S50000x64 ![0, 1] bcast_S1x64_S50000x64_0_1 b) = affine a W b := by
  funext i
  show Host.dotGeneral (F := Ideal) dot_S50000x128_S128x64_S50000x64_1_0_0_1_n_n none a W i
      + broadcastInDim S50000x64 ![0, 1] bcast_S1x64_S50000x64_0_1 b i
    = (∑ j : Fin 128, a (ix2 (i 0) j) * W (ix2 j (i 1))) + b (ix2 (0 : Fin 1) (i 1))
  have e1 : Host.dotGeneral (F := Ideal) dot_S50000x128_S128x64_S50000x64_1_0_0_1_n_n none a W i
      = ∑ j : Fin 128, a (ix2 (i 0) j) * W (ix2 j (i 1)) := by
    simp only [Host.dotGeneral]
    exact PlainDot.dotGeneral_apply 50000 128 64 none _ a W i
  have e2 : broadcastInDim S50000x64 ![0, 1] bcast_S1x64_S50000x64_0_1 b i = b (ix2 (0 : Fin 1) (i 1)) :=
    broadcastInDim_apply _ bcast_S1x64_S50000x64_0_1 b i (ix2 (0 : Fin 1) (i 1)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  rw [e1, e2]

/-- The maximum with a zero array is the maximum with zero, entry by entry. -/
theorem max_zero_eq (a : FVec Ideal S50000x128 .f32) :
    maximumf a (broadcastInDim S50000x128 ![] bcast_S_S50000x128 (constant (F := Ideal) S_ .f32 0x00000000#32)) = relu a := by
  funext i
  show max (a i) (broadcastInDim S50000x128 ![] bcast_S_S50000x128 (constant (F := Ideal) S_ .f32 0x00000000#32) i)
    = max (a i) (Ideal.ofBits .f32 0x00000000#32)
  refine congrArg (max (a i)) ?_
  exact broadcastInDim_apply _ bcast_S_S50000x128 (constant (F := Ideal) S_ .f32 0x00000000#32) i (fun d => d.elim0)
    (fun a => a.elim0)

/-- A vector laid as a one-row array by the host's broadcast. -/
theorem row128_eq (b : FVec Ideal S128 .f32) : broadcastInDim S1x128 ![1] bcast_S128_S1x128_1 b = rowOf b := by
  funext i
  exact broadcastInDim_apply _ bcast_S128_S1x128_1 b i (ix1 (i 1)) (fun a => match a with
    | ⟨0, _⟩ => by show (i 1).val = if (128 : Nat) = 1 then 0 else (i 1).val; rw [if_neg (by decide)])
theorem row64_eq (b : FVec Ideal S64 .f32) : broadcastInDim S1x64 ![1] bcast_S64_S1x64_1 b = rowOf b := by
  funext i
  exact broadcastInDim_apply _ bcast_S64_S1x64_1 b i (ix1 (i 1)) (fun a => match a with
    | ⟨0, _⟩ => by show (i 1).val = if (64 : Nat) = 1 then 0 else (i 1).val; rw [if_neg (by decide)])

/-! ## The reference's stages, one after another -/

section Stages

open Cert.ReferenceIdeal.Read

variable (x0 : FVec Ideal S50000x128 .f32) (x1 : FVec Ideal S128x128 .f32) (x2 : FVec Ideal S128 .f32)
  (x3 : FVec Ideal S128x64 .f32) (x4 : FVec Ideal S64 .f32) (x5 x6 : IVec S600000 32)

/-- The features scaled by the source norms. -/
theorem v15_eq : val_main_v15 (F := Ideal) x0 x5 = scaleRows x0 (normCol x5) := mul_col_eq x0 (normCol x5)

/-- The first aggregate. -/
theorem v25_eq : val_main_v25 (F := Ideal) x0 x5 x6 = agg x5 x6 (scaleRows x0 (normCol x5)) := by
  have h : val_main_v25 (F := Ideal) x0 x5 x6 = agg x5 x6 (val_main_v15 (F := Ideal) x0 x5) := rfl
  rw [h, v15_eq]

/-- The first aggregate scaled by the destination norms. -/
theorem v28_eq : val_main_v28 (F := Ideal) x0 x5 x6 = scaleRows (agg x5 x6 (scaleRows x0 (normCol x5))) (normCol x6) := by
  have h : val_main_v28 (F := Ideal) x0 x5 x6 = scaleRows (val_main_v25 (F := Ideal) x0 x5 x6) (normCol x6) :=
    mul_col_eq _ (normCol x6)
  rw [h, v25_eq]

/-- The hidden layer. -/
theorem v33_eq : val_main_v33 (F := Ideal) x0 x1 x2 x5 x6
    = hidden (agg x5 x6) (normCol x5) (normCol x6) x0 x1 (rowOf x2) := by
  have h32 : val_main_v32 (F := Ideal) x0 x1 x2 x5 x6
      = affine (val_main_v28 (F := Ideal) x0 x5 x6) x1 (broadcastInDim S1x128 ![1] bcast_S128_S1x128_1 x2) :=
    dense128_eq _ x1 _
  have h33 : val_main_v33 (F := Ideal) x0 x1 x2 x5 x6 = relu (val_main_v32 (F := Ideal) x0 x1 x2 x5 x6) :=
    max_zero_eq _
  rw [h33, h32, v28_eq, row128_eq]
  rfl

/-- The hidden layer scaled by the source norms. -/
theorem v36_eq : val_main_v36 (F := Ideal) x0 x1 x2 x5 x6
    = scaleRows (hidden (agg x5 x6) (normCol x5) (normCol x6) x0 x1 (rowOf x2)) (normCol x5) := by
  have h : val_main_v36 (F := Ideal) x0 x1 x2 x5 x6 = scaleRows (val_main_v33 (F := Ideal) x0 x1 x2 x5 x6) (normCol x5) :=
    mul_col_eq _ (normCol x5)
  rw [h, v33_eq]

/-- The second aggregate. -/
theorem v46_eq : val_main_v46 (F := Ideal) x0 x1 x2 x5 x6
    = agg x5 x6 (scaleRows (hidden (agg x5 x6) (normCol x5) (normCol x6) x0 x1 (rowOf x2)) (normCol x5)) := by
  have h : val_main_v46 (F := Ideal) x0 x1 x2 x5 x6 = agg x5 x6 (val_main_v36 (F := Ideal) x0 x1 x2 x5 x6) := rfl
  rw [h, v36_eq]

/-- The second aggregate scaled by the destination norms. -/
theorem v49_eq : val_main_v49 (F := Ideal) x0 x1 x2 x5 x6
    = scaleRows (agg x5 x6 (scaleRows (hidden (agg x5 x6) (normCol x5) (normCol x6) x0 x1 (rowOf x2)) (normCol x5)))
        (normCol x6) := by
  have h : val_main_v49 (F := Ideal) x0 x1 x2 x5 x6 = scaleRows (val_main_v46 (F := Ideal) x0 x1 x2 x5 x6) (normCol x6) :=
    mul_col_eq _ (normCol x6)
  rw [h, v46_eq]

/-- The reference's last stage is the network. -/
theorem v53_eq : val_main_v53 (F := Ideal) x0 x1 x2 x3 x4 x5 x6
    = network (agg x5 x6) (normCol x5) (normCol x6) x0 x1 (rowOf x2) x3 (rowOf x4) := by
  have h : val_main_v53 (F := Ideal) x0 x1 x2 x3 x4 x5 x6
      = affine (val_main_v49 (F := Ideal) x0 x1 x2 x5 x6) x3 (broadcastInDim S1x64 ![1] bcast_S64_S1x64_1 x4) :=
    dense64_eq _ x3 _
  rw [h, v49_eq, row64_eq]
  rfl

end Stages

variable (m : (ℓ : Loc nD τ sig) → Buf (Elt Ideal) ℓ)

/-- The reference's result is the network of its arguments. -/
theorem result_eq (c : Dev nD) : Cert.ReferenceIdeal.Value.res_main_v53 (F := Ideal) m c
    = network (agg (m ((c.tc : Thread nD τ).loc main_arg5)) (m ((c.tc : Thread nD τ).loc main_arg6)))
        (normCol (m ((c.tc : Thread nD τ).loc main_arg5))) (normCol (m ((c.tc : Thread nD τ).loc main_arg6)))
        (m ((c.tc : Thread nD τ).loc main_arg0)) (m ((c.tc : Thread nD τ).loc main_arg1))
        (rowOf (m ((c.tc : Thread nD τ).loc main_arg2)))
        (m ((c.tc : Thread nD τ).loc main_arg3))
        (rowOf (m ((c.tc : Thread nD τ).loc main_arg4))) :=
  (Cert.ReferenceIdeal.Read.val_main_v53_eq (F := Ideal) m c).trans (v53_eq _ _ _ _ _ _ _)

end Cert.ReferenceIdeal.RefValue

end
-- ==== Proof.lean ====
/-
  The certificate of a two-layer graph convolution: a kernel program of four pipelined regions among host stretches
  against a reference of host operations only.

  Each layer scales node `r`'s feature row by `1 / sqrt (max (out-degree r) 1)`, sums the scaled rows along the edges
  (row `src e` is added into row `dst e`), scales row `r` of the sum by `1 / sqrt (max (in-degree r) 1)`, and applies an
  affine map; the first layer ends with a maximum with zero. The kernel program computes the two row scalings and the two
  affine maps in row blocks of 2000 nodes, its matrix unit fed operands narrowed to a shorter format, and leaves the degrees,
  the gather and the scatter-add to the host; the reference does everything on the host. On the extended reals a change
  of format is the identity and both matrix products are the same sum over the shared axis in the same order, so both
  programs compute the same function of the arguments, entry by entry (`GraphConv.network`): no law of arithmetic beyond
  that is used, and the inputs' finiteness is not needed.

  The frames of the two kernel programs are the generated ones; the reference's is its generated run with the result
  dropped. The idealization rewrote no operation, so `preserves` asks nothing.
-/
import proofs.«168207_j120259084570_1_alg».proof.Defs
import proofs.«168207_j120259084570_1_alg».proof.Proof.Gen.Kernel.Frame
import proofs.«168207_j120259084570_1_alg».proof.Proof.Gen.KernelIdeal.Frame
import proofs.«168207_j120259084570_1_alg».proof.Proof.Gen.ReferenceIdeal.Run
import proofs.«168207_j120259084570_1_alg».proof.Proof.Gen.Pre_finite_inputs
import proofs.«168207_j120259084570_1_alg».proof.Proof.Spec
import proofs.«168207_j120259084570_1_alg».proof.Proof.KRun
import proofs.«168207_j120259084570_1_alg».proof.Proof.Walk
import proofs.«168207_j120259084570_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem GraphConv

/-! ## The two programs' spellings of the shared pieces agree -/

/-- Both programs sum along the edges with the same gather and scatter-add. -/
theorem agg_eq (src dst : IVec Cert.KernelIdeal.S600000 32) (h : FVec Ideal Cert.KernelIdeal.S50000x128 .f32) :
    Cert.ReferenceIdeal.RefValue.agg src dst h = Cert.KernelIdeal.Walk.agg src dst h := rfl

/-- Both programs compute the node norms with the same operations. -/
theorem normCol_eq (idx : IVec Cert.KernelIdeal.S600000 32) :
    Cert.ReferenceIdeal.RefValue.normCol idx = Cert.KernelIdeal.Walk.normCol idx := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the arguments in their result buffers. -/
theorem algebraic : Cert.algebraic_KernelIdeal_ReferenceIdeal := by
  intro m ρ m' ρ' _ hagree
  refine ⟨fun c => network
      (Cert.KernelIdeal.Walk.agg (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (Cert.KernelIdeal.Walk.normCol (m ((c.tc : Thread Cert.KernelIdeal.nD Cert.KernelIdeal.τ).loc Cert.KernelIdeal.main_arg5)))
      (Cert.KernelIdeal.Walk.normCol (m ((c.tc : Thread Cert.KernelIdeal.nD Cert.KernelIdeal.τ).loc Cert.KernelIdeal.main_arg6)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (rowOf (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (rowOf (m ((c.tc : Thread Cert.KernelIdeal.nD Cert.KernelIdeal.τ).loc Cert.KernelIdeal.main_arg4))), ?_, ?_⟩
  · refine (θ_run Cert.KernelIdeal.defs _ _).mono (fun r h c => ⟨(h c).1.trans ?_, (h c).2⟩)
      (Cert.KernelIdeal.KRun.run_value (F := Ideal) m ρ)
    exact Cert.KernelIdeal.Walk.out_value m ρ c
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
